-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x256 : Shape := ⟨2, ![500000, 256]⟩
abbrev S100000x256 : Shape := ⟨2, ![100000, 256]⟩
abbrev S400000 : Shape := ⟨1, ![400000]⟩
abbrev S256x256 : Shape := ⟨2, ![256, 256]⟩
abbrev S256 : Shape := ⟨1, ![256]⟩
abbrev S512x256 : Shape := ⟨2, ![512, 256]⟩
abbrev S_ : Shape := ⟨0, ![]⟩

class Facts : Prop where
  bcast_S_S500000x256 : S_.BroadcastsInDim S500000x256 (![] : Fin 0 → Fin S500000x256.rank)
  reducesTo_S500000x256_S_d0_1 : S500000x256.ReducesTo [0, 1] S_
  h_S_ : 0 < S_.numel
  bcast_S_S100000x256 : S_.BroadcastsInDim S100000x256 (![] : Fin 0 → Fin S100000x256.rank)
  reducesTo_S100000x256_S_d0_1 : S100000x256.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S512x256 : S_.BroadcastsInDim S512x256 (![] : Fin 0 → Fin S512x256.rank)
  reducesTo_S512x256_S_d0_1 : S512x256.ReducesTo [0, 1] S_

variable [Facts]

def fn_part1 {F : FTy → Type} [FloatOps F] (main_arg6 : FVec F S512x256 .f32) (main_arg7 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S512x256 .f32 := Host.absf main_arg6
  let main_cst_6 : FVec F S_ .f32 := constant S_ .f32 0x7F800000#32
  let main_v20 : FVec F S512x256 .f32 := broadcastInDim S512x256 ![] bcast_S_S512x256 main_cst_6
  let main_v21 : IVec S512x256 1 := cmpf .olt main_v19 main_v20
  let main_c_7 : IVec S_ 1 := constantI S_ 1 1#1
  let main_v22 : IVec S_ 1 := (fun x v => Host.reduce IntOp.andi x v reducesTo_S512x256_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  main_v28

def fn {F : FTy → Type} [FloatOps F] (main_arg0 : FVec F S500000x256 .f32) (main_arg1 : FVec F S100000x256 .f32) (main_arg2 : IVec S400000 32) (main_arg3 : IVec S400000 32) (main_arg4 : FVec F S256x256 .f32) (main_arg5 : FVec F S256 .f32) (main_arg6 : FVec F S512x256 .f32) (main_arg7 : FVec F S256 .f32) : IVec S_ 1 :=
  let main_v0 : FVec F S500000x256 .f32 := Host.absf main_arg0
  let main_cst : FVec F S_ .f32 := constant S_ .f32 0x7F800000#32
  let main_v1 : FVec F S500000x256 .f32 := broadcastInDim S500000x256 ![] bcast_S_S500000x256 main_cst
  let main_v2 : IVec S500000x256 1 := cmpf .olt main_v0 main_v1
  let main_c : IVec S_ 1 := constantI S_ 1 1#1
  let main_v3 : IVec S_ 1 := (fun x v => Host.reduce IntOp.andi x v reducesTo_S500000x256_S_d0_1 h_S_) main_v2 main_c
  let main_v4 : FVec F S100000x256 .f32 := Host.absf main_arg1
  let main_cst_0 : FVec F S_ .f32 := constant S_ .f32 0x7F800000#32
  let main_v5 : FVec F S100000x256 .f32 := broadcastInDim S100000x256 ![] bcast_S_S100000x256 main_cst_0
  let main_v6 : IVec S100000x256 1 := cmpf .olt main_v4 main_v5
  let main_c_1 : IVec S_ 1 := constantI S_ 1 1#1
  let main_v7 : IVec S_ 1 := (fun x v => Host.reduce IntOp.andi x v reducesTo_S100000x256_S_d0_1 h_S_) main_v6 main_c_1
  let main_v8 : IVec S_ 1 := andi main_v3 main_v7
  let main_v9 : FVec F S256x256 .f32 := Host.absf main_arg4
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_v13 main_v16
-- ==== Kernel.lean ====
abbrev S500000x256 : Shape := ⟨2, ![500000, 256]⟩
abbrev S100000x256 : Shape := ⟨2, ![100000, 256]⟩
abbrev S400000 : Shape := ⟨1, ![400000]⟩
abbrev S256x256 : Shape := ⟨2, ![256, 256]⟩
abbrev S256 : Shape := ⟨1, ![256]⟩
abbrev S512x256 : Shape := ⟨2, ![512, 256]⟩
abbrev S_ : Shape := ⟨0, ![]⟩
abbrev S400000x1 : Shape := ⟨2, ![400000, 1]⟩
abbrev S400000x256 : Shape := ⟨2, ![400000, 256]⟩
abbrev S1x256 : Shape := ⟨2, ![1, 256]⟩
abbrev S2000x256 : Shape := ⟨2, ![2000, 256]⟩

abbrev nBuf : Space → Nat
  | .hbm => 43
  | .vmem => 11
  | .smem => 0
  | _ => 0

abbrev bufTy : (tb : Table) → Fin (tcTables nBuf tb) → BufTy
  | .hbm, ⟨0, _⟩ => ⟨S500000x256, .f32⟩
  | .hbm, ⟨1, _⟩ => ⟨S100000x256, .f32⟩
  | .hbm, ⟨2, _⟩ => ⟨S400000, .i32⟩
  | .hbm, ⟨3, _⟩ => ⟨S400000, .i32⟩
  | .hbm, ⟨4, _⟩ => ⟨S256x256, .f32⟩
  | .hbm, ⟨5, _⟩ => ⟨S256, .f32⟩
  | .hbm, ⟨6, _⟩ => ⟨S512x256, .f32⟩
  | .hbm, ⟨7, _⟩ => ⟨S256, .f32⟩
  | .hbm, ⟨8, _⟩ => ⟨S_, .i32⟩
  | .hbm, ⟨9, _⟩ => ⟨S400000, .i32⟩
  | .hbm, ⟨10, _⟩ => ⟨S400000, .i1⟩
  | .hbm, ⟨11, _⟩ => ⟨S_, .i32⟩
  | .hbm, ⟨12, _⟩ => ⟨S400000, .i32⟩
  | .hbm, ⟨13, _⟩ => ⟨S400000, .i32⟩
  | .hbm, ⟨14, _⟩ => ⟨S400000, .i32⟩
  | .hbm, ⟨15, _⟩ => ⟨S400000x1, .i32⟩
  | .hbm, ⟨16, _⟩ => ⟨S400000x256, .f32⟩
  | .hbm, ⟨17, _⟩ => ⟨S_, .i32⟩
  | .hbm, ⟨18, _⟩ => ⟨S400000, .i32⟩
  | .hbm, ⟨19, _⟩ => ⟨S400000, .i1⟩
  | .hbm, ⟨20, _⟩ => ⟨S_, .i32⟩
  | .hbm, ⟨21, _⟩ => ⟨S400000, .i32⟩
  | .hbm, ⟨22, _⟩ => ⟨S400000, .i32⟩
  | .hbm, ⟨23, _⟩ => ⟨S400000, .i32⟩
  | .hbm, ⟨24, _⟩ => ⟨S400000x1, .i32⟩
  | .hbm, ⟨25, _⟩ => ⟨S400000x256, .f32⟩
  | .hbm, ⟨26, _⟩ => ⟨S256x256, .f32⟩
  | .hbm, ⟨27, _⟩ => ⟨S256x256, .bf16⟩
  | .hbm, ⟨28, _⟩ => ⟨S256x256, .f32⟩
  | .hbm, ⟨29, _⟩ => ⟨S256x256, .bf16⟩
  | .hbm, ⟨30, _⟩ => ⟨S256x256, .bf16⟩
  | .hbm, ⟨31, _⟩ => ⟨S1x256, .f32⟩
  | .hbm, ⟨32, _⟩ => ⟨S1x256, .f32⟩
  | .hbm, ⟨33, _⟩ => ⟨S400000x256, .f32⟩
  | .hbm, ⟨34, _⟩ => ⟨S_, .i32⟩
  | .hbm, ⟨35, _⟩ => ⟨S400000, .i32⟩
  | .hbm, ⟨36, _⟩ => ⟨S400000, .i1⟩
  | .hbm, ⟨37, _⟩ => ⟨S_, .i32⟩
  | .hbm, ⟨38, _⟩ => ⟨S400000, .i32⟩
  | .hbm, ⟨39, _⟩ => ⟨S400000, .i32⟩
  | .hbm, ⟨40, _⟩ => ⟨S400000, .i32⟩
  | .hbm, ⟨41, _⟩ => ⟨S400000x1, .i32⟩
  | .hbm, ⟨42, _⟩ => ⟨S500000x256, .f32⟩
  | .local _ .vmem, ⟨0, _⟩ => ⟨S2000x256, .f32⟩
  | .local _ .vmem, ⟨1, _⟩ => ⟨S2000x256, .f32⟩
  | .local _ .vmem, ⟨2, _⟩ => ⟨S2000x256, .f32⟩
  | .local _ .vmem, ⟨3, _⟩ => ⟨S2000x256, .f32⟩
  | .local _ .vmem, ⟨4, _⟩ => ⟨S256x256, .bf16⟩
  | .local _ .vmem, ⟨5, _⟩ => ⟨S1x256, .f32⟩
  | .local _ .vmem, ⟨6, _⟩ => ⟨S256x256, .bf16⟩
  | .local _ .vmem, ⟨7, _⟩ => ⟨S256x256, .bf16⟩
  | .local _ .vmem, ⟨8, _⟩ => ⟨S1x256, .f32⟩
  | .local _ .vmem, ⟨9, _⟩ => ⟨S2000x256, .f32⟩
  | .local _ .vmem, ⟨10, _⟩ => ⟨S2000x256, .f32⟩
  | _, _ => ⟨S500000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_3 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S400000 : S_.BroadcastsInDim S400000 (![] : Fin 0 → Fin S400000.rank)
  bcast_S400000_S400000x1_0 : S400000.BroadcastsInDim S400000x1 (![0] : Fin 1 → Fin S400000x1.rank)
  slices_S512x256_S256x256_0_0 : S512x256.Slices ![0, 0] S256x256
  bitsLt_bf16_f32 : FTy.bits .bf16 < FTy.bits .f32
  slices_S512x256_S256x256_256_0 : S512x256.Slices ![256, 0] S256x256
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  gather_S500000x256_S400000x1_S400000x256_1_0_n_n_0_1_1256_wf : GatherDims.WF S500000x256 S400000x1 S400000x256 [1] [0] [] [0] [] 1 ![1, 256]
  gather_S100000x256_S400000x1_S400000x256_1_0_n_n_0_1_1256_wf : GatherDims.WF S100000x256 S400000x1 S400000x256 [1] [0] [] [0] [] 1 ![1, 256]
  dot_S2000x256_S256x256_S2000x256_1_0_0_1_n_n_wf : DotDims.WF S2000x256 S256x256 S2000x256 [1] [0] [0] [1] [] []
  scatter_S500000x256_S400000x1_S400000x256_1_0_0_1_wf : ScatterDims.WF S500000x256 S400000x1 S400000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S400000x256.size a
  hwx0_0 : ∀ i : grid0.Coords, EltTy.bits .f32 = 32 ∨ (Rect.block (s := S400000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S400000x256.size a
  hwx0_1 : ∀ i : grid0.Coords, EltTy.bits .f32 = 32 ∨ (Rect.block (s := S400000x256) S2000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .bf16 = 32 ∨ (Rect.block (s := S256x256) S256x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x256.size a ≤ S400000x256.size a
  hwx0_7 : ∀ i : grid0.Coords, EltTy.bits .f32 = 32 ∨ (Rect.block (s := S400000x256) S2000x256.size (cc0_transform_7 i) (hinb0_7 i)).WholeWords (EltTy.packing .f32)

variable [Facts₀]

def gather_S500000x256_S400000x1_S400000x256_1_0_n_n_0_1_1256 : GatherDims S500000x256 S400000x1 S400000x256 where
  offsetDims := [1]
  collapsedSliceDims := [0]
  operandBatchingDims := []
  startIndicesBatchingDims := []
  startIndexMap := [0]
  indexVectorDim := 1
  sliceSizes := ![1, 256]
  wf := gather_S500000x256_S400000x1_S400000x256_1_0_n_n_0_1_1256_wf
def gather_S100000x256_S400000x1_S400000x256_1_0_n_n_0_1_1256 : GatherDims S100000x256 S400000x1 S400000x256 where
  offsetDims := [1]
  collapsedSliceDims := [0]
  operandBatchingDims := []
  startIndicesBatchingDims := []
  startIndexMap := [0]
  indexVectorDim := 1
  sliceSizes := ![1, 256]
  wf := gather_S100000x256_S400000x1_S400000x256_1_0_n_n_0_1_1256_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def scatter_S500000x256_S400000x1_S400000x256_1_0_0_1 : ScatterDims S500000x256 S400000x1 S400000x256 where
  updateWindowDims := [1]
  insertedWindowDims := [0]
  scatterDimsToOperandDims := [0]
  indexVectorDim := 1
  wf := scatter_S500000x256_S400000x1_S400000x256_1_0_0_1_wf

abbrev win0_0 : Pipeline.Window sig grid0 :=
  Pipeline.Window.ofSpec (Memref.whole main_v6) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v21) S2000x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S500000x256 : Shape := ⟨2, ![500000, 256]⟩
abbrev S100000x256 : Shape := ⟨2, ![100000, 256]⟩
abbrev S400000 : Shape := ⟨1, ![400000]⟩
abbrev S256x256 : Shape := ⟨2, ![256, 256]⟩
abbrev S256 : Shape := ⟨1, ![256]⟩
abbrev S512x256 : Shape := ⟨2, ![512, 256]⟩
abbrev S_ : Shape := ⟨0, ![]⟩
abbrev S400000x1 : Shape := ⟨2, ![400000, 1]⟩
abbrev S400000x256 : Shape := ⟨2, ![400000, 256]⟩
abbrev S1x256 : Shape := ⟨2, ![1, 256]⟩

abbrev nBuf : Space → Nat
  | .hbm => 62
  | .vmem => 0
  | .smem => 0
  | _ => 0

abbrev bufTy : (tb : Table) → Fin (tcTables nBuf tb) → BufTy
  | .hbm, ⟨0, _⟩ => ⟨S500000x256, .f32⟩
  | .hbm, ⟨1, _⟩ => ⟨S100000x256, .f32⟩
  | .hbm, ⟨2, _⟩ => ⟨S400000, .i32⟩
  | .hbm, ⟨3, _⟩ => ⟨S400000, .i32⟩
  | .hbm, ⟨4, _⟩ => ⟨S256x256, .f32⟩
  | .hbm, ⟨5, _⟩ => ⟨S256, .f32⟩
  | .hbm, ⟨6, _⟩ => ⟨S512x256, .f32⟩
  | .hbm, ⟨7, _⟩ => ⟨S256, .f32⟩
  | .hbm, ⟨8, _⟩ => ⟨S_, .i32⟩
  | .hbm, ⟨9, _⟩ => ⟨S400000, .i32⟩
  | .hbm, ⟨10, _⟩ => ⟨S400000, .i1⟩
  | .hbm, ⟨11, _⟩ => ⟨S_, .i32⟩
  | .hbm, ⟨12, _⟩ => ⟨S400000, .i32⟩
  | .hbm, ⟨13, _⟩ => ⟨S400000, .i32⟩
  | .hbm, ⟨14, _⟩ => ⟨S400000, .i32⟩
  | .hbm, ⟨15, _⟩ => ⟨S400000x1, .i32⟩
  | .hbm, ⟨16, _⟩ => ⟨S400000x256, .f32⟩
  | .hbm, ⟨17, _⟩ => ⟨S_, .i32⟩
  | .hbm, ⟨18, _⟩ => ⟨S400000, .i32⟩
  | .hbm, ⟨19, _⟩ => ⟨S400000, .i1⟩
  | .hbm, ⟨20, _⟩ => ⟨S_, .i32⟩
  | .hbm, ⟨21, _⟩ => ⟨S400000, .i32⟩
  | .hbm, ⟨22, _⟩ => ⟨S400000, .i32⟩
  | .hbm, ⟨23, _⟩ => ⟨S400000, .i32⟩
  | .hbm, ⟨24, _⟩ => ⟨S400000x1, .i32⟩
  | .hbm, ⟨25, _⟩ => ⟨S400000x256, .f32⟩
  | .hbm, ⟨26, _⟩ => ⟨S400000x256, .f32⟩
  | .hbm, ⟨27, _⟩ => ⟨S1x256, .f32⟩
  | .hbm, ⟨28, _⟩ => ⟨S400000x256, .f32⟩
  | .hbm, ⟨29, _⟩ => ⟨S400000x256, .f32⟩
  | .hbm, ⟨30, _⟩ => ⟨S400000x256, .f32⟩
  | .hbm, ⟨31, _⟩ => ⟨S256x256, .f32⟩
  | .hbm, ⟨32, _⟩ => ⟨S400000x256, .f32⟩
  | .hbm, ⟨33, _⟩ => ⟨S256x256, .f32⟩
  | .hbm, ⟨34, _⟩ => ⟨S400000x256, .f32⟩
  | .hbm, ⟨35, _⟩ => ⟨S400000x256, .f32⟩
  | .hbm, ⟨36, _⟩ => ⟨S1x256, .f32⟩
  | .hbm, ⟨37, _⟩ => ⟨S400000x256, .f32⟩
  | .hbm, ⟨38, _⟩ => ⟨S400000x256, .f32⟩
  | .hbm, ⟨39, _⟩ => ⟨S400000x256, .f32⟩
  | .hbm, ⟨40, _⟩ => ⟨S400000x256, .f32⟩
  | .hbm, ⟨41, _⟩ => ⟨S_, .f32⟩
  | .hbm, ⟨42, _⟩ => ⟨S400000x256, .f32⟩
  | .hbm, ⟨43, _⟩ => ⟨S400000x256, .f32⟩
  | .hbm, ⟨44, _⟩ => ⟨S_, .f32⟩
  | .hbm, ⟨45, _⟩ => ⟨S400000x256, .f32⟩
  | .hbm, ⟨46, _⟩ => ⟨S400000x256, .f32⟩
  | .hbm, ⟨47, _⟩ => ⟨S400000x256, .f32⟩
  | .hbm, ⟨48, _⟩ => ⟨S_, .f32⟩
  | .hbm, ⟨49, _⟩ => ⟨S400000x256, .f32⟩
  | .hbm, ⟨50, _⟩ => ⟨S400000x256, .f32⟩
  | .hbm, ⟨51, _⟩ => ⟨S400000x256, .f32⟩
  | .hbm, ⟨52, _⟩ => ⟨S400000x256, .f32⟩
  | .hbm, ⟨53, _⟩ => ⟨S_, .i32⟩
  | .hbm, ⟨54, _⟩ => ⟨S400000, .i32⟩
  | .hbm, ⟨55, _⟩ => ⟨S400000, .i1⟩
  | .hbm, ⟨56, _⟩ => ⟨S_, .i32⟩
  | .hbm, ⟨57, _⟩ => ⟨S400000, .i32⟩
  | .hbm, ⟨58, _⟩ => ⟨S400000, .i32⟩
  | .hbm, ⟨59, _⟩ => ⟨S400000, .i32⟩
  | .hbm, ⟨60, _⟩ => ⟨S400000x1, .i32⟩
  | .hbm, ⟨61, _⟩ => ⟨S500000x256, .f32⟩
  | _, _ => ⟨S500000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst : Ref sig .tc := ⟨.hbm, 41, rfl⟩
abbrev main_v29 : Ref sig .tc := ⟨.hbm, 42, rfl⟩
abbrev main_v30 : Ref sig .tc := ⟨.hbm, 43, rfl⟩
abbrev main_cst_3 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_4 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_c_5 : Ref sig .tc := ⟨.hbm, 53, rfl⟩
abbrev main_v38 : Ref sig .tc := ⟨.hbm, 54, rfl⟩
abbrev main_v39 : Ref sig .tc := ⟨.hbm, 55, rfl⟩
abbrev main_c_6 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩

abbrev nD : Nat := 1
abbrev τ : Topo := Topo.v7x

variable {F : FTy → Type} [FloatOps F]

class Facts₀ : Prop where
  bcast_S_S400000 : S_.BroadcastsInDim S400000 (![] : Fin 0 → Fin S400000.rank)
  bcast_S400000_S400000x1_0 : S400000.BroadcastsInDim S400000x1 (![0] : Fin 1 → Fin S400000x1.rank)
  bcast_S256_S1x256_1 : S256.BroadcastsInDim S1x256 (![1] : Fin 1 → Fin S1x256.rank)
  bcast_S1x256_S400000x256_0_1 : S1x256.BroadcastsInDim S400000x256 (![0, 1] : Fin 2 → Fin S400000x256.rank)
  slices_S512x256_S256x256_0_0 : S512x256.Slices ![0, 0] S256x256
  slices_S512x256_S256x256_256_0 : S512x256.Slices ![256, 0] S256x256
  bcast_S_S400000x256 : S_.BroadcastsInDim S400000x256 (![] : Fin 0 → Fin S400000x256.rank)
  gather_S500000x256_S400000x1_S400000x256_1_0_n_n_0_1_1256_wf : GatherDims.WF S500000x256 S400000x1 S400000x256 [1] [0] [] [0] [] 1 ![1, 256]
  gather_S100000x256_S400000x1_S400000x256_1_0_n_n_0_1_1256_wf : GatherDims.WF S100000x256 S400000x1 S400000x256 [1] [0] [] [0] [] 1 ![1, 256]
  dot_S400000x256_S256x256_S400000x256_1_0_0_1_n_n_wf : DotDims.WF S400000x256 S256x256 S400000x256 [1] [0] [0] [1] [] []
  scatter_S500000x256_S400000x1_S400000x256_1_0_0_1_wf : ScatterDims.WF S500000x256 S400000x1 S400000x256 [1] [0] [0] 1

variable [Facts₀]

def gather_S500000x256_S400000x1_S400000x256_1_0_n_n_0_1_1256 : GatherDims S500000x256 S400000x1 S400000x256 where
  offsetDims := [1]
  collapsedSliceDims := [0]
  operandBatchingDims := []
  startIndicesBatchingDims := []
  startIndexMap := [0]
  indexVectorDim := 1
  sliceSizes := ![1, 256]
  wf := gather_S500000x256_S400000x1_S400000x256_1_0_n_n_0_1_1256_wf
def gather_S100000x256_S400000x1_S400000x256_1_0_n_n_0_1_1256 : GatherDims S100000x256 S400000x1 S400000x256 where
  offsetDims := [1]
  collapsedSliceDims := [0]
  operandBatchingDims := []
  startIndicesBatchingDims := []
  startIndexMap := [0]
  indexVectorDim := 1
  sliceSizes := ![1, 256]
  wf := gather_S100000x256_S400000x1_S400000x256_1_0_n_n_0_1_1256_wf
def dot_S400000x256_S256x256_S400000x256_1_0_0_1_n_n : DotDims S400000x256 S256x256 S400000x256 where
  lhsContracting := [1]
  rhsContracting := [0]
  lhsNonContracting := [0]
  rhsNonContracting := [1]
  lhsBatch := []
  rhsBatch := []
  wf := dot_S400000x256_S256x256_S400000x256_1_0_0_1_n_n_wf
def scatter_S500000x256_S400000x1_S400000x256_1_0_0_1 : ScatterDims S500000x256 S400000x1 S400000x256 where
  updateWindowDims := [1]
  insertedWindowDims := [0]
  scatterDimsToOperandDims := [0]
  indexVectorDim := 1
  wf := scatter_S500000x256_S400000x1_S400000x256_1_0_0_1_wf

class Facts : Prop extends Facts₀ where

variable [Facts]
-- ==== Proof.GatedRow.lean ====
/-
  The gated state update of one row, on the extended reals.

  Given a row p of previous states and a row x of context (both of length D), weight matrices Wu, G1, G2 (D × D)
  and bias rows bu, bg, the update is, for every column c:

      u_c   = tanh ( Σ_k x_k · Wu(k, c) + bu_c )                               the proposed state
      z_c   = σ ( ( Σ_k p_k · G1(k, c) + Σ_k u_k · G2(k, c) ) + bg_c )          the gate,  σ(t) = 1 / (1 + e^(−t))
      new_c = z_c · p_c + (1 − z_c) · u_c                                       the blend

  Everything is row-local: the result's row depends on the same row of the two inputs only. That is what lets a
  row tile of the output be computed from the same row tile of the inputs.

  The "1" of the blend is kept as the float word it is printed as (both programs print the same word, so its value
  is never needed there); the "1"s of the logistic expansion are read as the real number one (`one_eq`).
-/
import Idealize.ShloMosaic.PureOps.Ideal
import Idealize.ShloMosaic.PureOps.Ideal.Laws

noncomputable section

namespace Cert.GatedRow

open Idealize.ShloMosaic

variable {D : Nat}

/-- The float word of one. -/
abbrev one : EReal := Ideal.ofBits .f32 0x3F800000#32

/-- It denotes the real number one. -/
theorem one_eq : one = 1 := by
  simp [one, Ideal.ofBits, Ideal.ieee, -EReal.coe_mul]; norm_num

/-- The proposed state: the context row through the update layer and tanh. -/
def upd (x : Fin D → EReal) (wu : Fin D → Fin D → EReal) (bu : Fin D → EReal) (c : Fin D) : EReal :=
  Ideal.tanh ((∑ k : Fin D, x k * wu k c) + bu c)

/-- The gate: the logistic of the previous row through G1 plus the proposed row through G2, plus the bias. -/
def gate (p x : Fin D → EReal) (wu g1 g2 : Fin D → Fin D → EReal) (bu bg : Fin D → EReal) (c : Fin D) : EReal :=
  Ideal.logistic (((∑ k : Fin D, p k * g1 k c) + (∑ k : Fin D, upd x wu bu k * g2 k c)) + bg c)

/-- The blended new state. -/
def newState (p x : Fin D → EReal) (wu g1 g2 : Fin D → Fin D → EReal) (bu bg : Fin D → EReal) (c : Fin D) : EReal :=
  gate p x wu g1 g2 bu bg c * p c + (one - gate p x wu g1 g2 bu bg c) * upd x wu bu c

/-- The new state depends on its arguments through their values only: rows, weights and biases that agree entry by
    entry give the same new state. -/
theorem newState_congr {p p' x x' : Fin D → EReal} {wu wu' g1 g1' g2 g2' : Fin D → Fin D → EReal} {bu bu' bg bg' : Fin D → EReal}
    (hp : ∀ k, p k = p' k) (hx : ∀ k, x k = x' k) (hwu : ∀ k c, wu k c = wu' k c) (hg1 : ∀ k c, g1 k c = g1' k c)
    (hg2 : ∀ k c, g2 k c = g2' k c) (hbu : ∀ c, bu c = bu' c) (hbg : ∀ c, bg c = bg' c) (c : Fin D) :
    newState p x wu g1 g2 bu bg c = newState p' x' wu' g1' g2' bu' bg' c := by
  obtain rfl : p = p' := funext hp
  obtain rfl : x = x' := funext hx
  obtain rfl : wu = wu' := funext fun k => funext (hwu k)
  obtain rfl : g1 = g1' := funext fun k => funext (hg1 k)
  obtain rfl : g2 = g2' := funext fun k => funext (hg2 k)
  obtain rfl : bu = bu' := funext hbu
  obtain rfl : bg = bg' := funext hbg
  rfl

/-- The logistic written out with the float word of one, as a host program spells it: 1 / (1 + e^(−t)). It is the
    logistic on every extended real (at −∞ the quotient is 1/∞ = 0, at +∞ it is 1/1), by the definition of the
    logistic on the extended reals. -/
theorem logistic_expanded (t : EReal) : Ideal.div one (one + Ideal.exp (-t)) = Ideal.logistic t := by
  rw [one_eq]; rfl

end Cert.GatedRow

end
-- ==== Proof.KernelBlocks.lean ====
/-
  The row tiles of the region, read at an index, and the cover.

  The region runs over 200 grid points; at point t the two tiled inputs and the output are at rows 2000·t … 2000·t + 1999
  of their 400000 × 256 arrays (all 256 columns), and the three weight matrices and two bias rows are whole at every
  point. So what point t writes back is, at local (p, q), the gated update of row 2000·t + p of the two gathered
  arrays, at column q — the same function of the array index at every point — and the 200 tiles cover every row.
  This module holds the array-level function `newStates`, each input tile read at an index of its array, the array
  index of an output tile's element, and the fact that the 200 output tiles cover the array.
-/
import proofs.«152071_j2705829396959_1_alg».proof.Proof.Gen.KernelIdeal.Frame
import proofs.«152071_j2705829396959_1_alg».proof.Proof.GatedRow
import Idealize.ShloMosaic.Lib.Pipeline.Value
import Idealize.ShloMosaic.Lib.ValueIdx

set_option maxRecDepth 16384

noncomputable section

namespace Cert.KernelIdeal.ArrayValue

open Cert.KernelIdeal Cert.KernelIdeal.Gen Idealize.ShloMosaic Idealize.ShloMosaic.TcCoe Idealize.ShloMosaic.ValueIdx
open Idealize.SL.Sem
open Idealize.ShloMosaic.Pipeline (Dat Cfg Window)

/-- The gated update of every row: the array of new states as a function of the two gathered arrays, the three weight
    matrices and the two bias rows. -/
def newStates (P X : Vec Ideal S400000x256 .f32) (wu : Vec Ideal S256x256 .bf16) (bu : Vec Ideal S1x256 .f32)
    (g1 g2 : Vec Ideal S256x256 .bf16) (bg : Vec Ideal S1x256 .f32) : Vec Ideal S400000x256 .f32 :=
  fun i => GatedRow.newState (fun k => P (ix2 (i 0 : Fin 400000) k)) (fun k => X (ix2 (i 0 : Fin 400000) k))
    (fun k c => wu (ix2 k c)) (fun k c => g1 (ix2 k c)) (fun k c => g2 (ix2 k c))
    (fun c => bu (ix2 (0 : Fin 1) c)) (fun c => bg (ix2 (0 : Fin 1) c)) (i 1 : Fin 256)

theorem newStates_apply (P X : Vec Ideal S400000x256 .f32) (wu : Vec Ideal S256x256 .bf16) (bu : Vec Ideal S1x256 .f32)
    (g1 g2 : Vec Ideal S256x256 .bf16) (bg : Vec Ideal S1x256 .f32) (r : Fin 400000) (q : Fin 256) :
    newStates P X wu bu g1 g2 bg (ix2 r q)
      = GatedRow.newState (fun k => P (ix2 r k)) (fun k => X (ix2 r k)) (fun k c => wu (ix2 k c)) (fun k c => g1 (ix2 k c))
          (fun k c => g2 (ix2 k c)) (fun c => bu (ix2 (0 : Fin 1) c)) (fun c => bg (ix2 (0 : Fin 1) c)) q := rfl

variable (m : (ℓ : Loc nD τ sig) → Buf (Elt Ideal) ℓ)

/-! ## The arrays as the region finds them, by name and at their literal types -/

/-- The gathered previous states. -/
abbrev prevArr (c : Dev nD) : Vec Ideal S400000x256 .f32 := V m c main_v6
/-- The gathered context. -/
abbrev ctxArr (c : Dev nD) : Vec Ideal S400000x256 .f32 := V m c main_v13
/-- The update weights. -/
abbrev wuArr (c : Dev nD) : Vec Ideal S256x256 .bf16 := V m c main_v18
/-- The update bias row. -/
abbrev buArr (c : Dev nD) : Vec Ideal S1x256 .f32 := V m c main_v19
/-- The gate weights' upper half. -/
abbrev g1Arr (c : Dev nD) : Vec Ideal S256x256 .bf16 := V m c main_v15
/-- The gate weights' lower half. -/
abbrev g2Arr (c : Dev nD) : Vec Ideal S256x256 .bf16 := V m c main_v17
/-- The gate bias row. -/
abbrev bgArr (c : Dev nD) : Vec Ideal S1x256 .f32 := V m c main_v20

/-- What the output array ends holding. -/
abbrev result (c : Dev nD) : Vec Ideal S400000x256 .f32 :=
  newStates (prevArr m c) (ctxArr m c) (wuArr m c) (buArr m c) (g1Arr m c) (g2Arr m c) (bgArr m c)

/-! ## The index maps over the grid -/

theorem hz : (![0, 0] : Fin 2 → Nat) = fun _ => 0 := funext fun a => by fin_cases a <;> rfl

/-- The tiled windows are at block row t, block column 0; the resident ones at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-! ## The input tiles read at an index -/

/-- Row p of the previous-state tile at point t is row 2000·t + p of the gathered previous states. -/
theorem prevTile_apply (c : Dev nD) (t : Fin cfg0.N) (p : Fin 2000) (k : Fin 256) (r : Fin 400000) (hr : r.val = 2000 * t.val + p.val) :
    (iblk m c 0 t : Vec Ideal S2000x256 .f32) (ix2 p k) = prevArr m c (ix2 r k) := by
  obtain ⟨e0, e1, -⟩ := idx_facts t
  unfold iblk
  rw [View.read_apply]
  show V m c main_v6 _ = V m c main_v6 _
  congr 1
  funext a
  apply Fin.ext
  match a with
  | ⟨0, _⟩ => show win0_0.index t (0 : Fin 2) * 2000 + 1 * p.val = r.val; rw [e0, hr]; omega
  | ⟨1, _⟩ => show win0_0.index t (1 : Fin 2) * 256 + 1 * k.val = k.val; rw [e1]; omega

/-- Row p of the context tile at point t is row 2000·t + p of the gathered context. -/
theorem ctxTile_apply (c : Dev nD) (t : Fin cfg0.N) (p : Fin 2000) (k : Fin 256) (r : Fin 400000) (hr : r.val = 2000 * t.val + p.val) :
    (iblk m c 1 t : Vec Ideal S2000x256 .f32) (ix2 p k) = ctxArr m c (ix2 r k) := by
  obtain ⟨-, -, e0, e1, -⟩ := idx_facts t
  unfold iblk
  rw [View.read_apply]
  show V m c main_v13 _ = V m c main_v13 _
  congr 1
  funext a
  apply Fin.ext
  match a with
  | ⟨0, _⟩ => show win0_1.index t (0 : Fin 2) * 2000 + 1 * p.val = r.val; rw [e0, hr]; omega
  | ⟨1, _⟩ => show win0_1.index t (1 : Fin 2) * 256 + 1 * k.val = k.val; rw [e1]; omega

/-- The update weights' block is the whole matrix at every point. -/
theorem wuTile_apply (c : Dev nD) (t : Fin cfg0.N) (k q : Fin 256) :
    (iblk m c 2 t : Vec Ideal S256x256 .bf16) (ix2 k q) = wuArr m c (ix2 k q) := by
  obtain ⟨-, -, -, -, e0, e1, -⟩ := idx_facts t
  unfold iblk
  rw [View.read_apply]
  show V m c main_v18 _ = V m c main_v18 _
  congr 1
  funext a
  apply Fin.ext
  match a with
  | ⟨0, _⟩ => show win0_2.index t (0 : Fin 2) * 256 + 1 * k.val = k.val; rw [e0]; omega
  | ⟨1, _⟩ => show win0_2.index t (1 : Fin 2) * 256 + 1 * q.val = q.val; rw [e1]; omega

/-- The update bias's block is the whole row at every point. -/
theorem buTile_apply (c : Dev nD) (t : Fin cfg0.N) (q : Fin 256) :
    (iblk m c 3 t : Vec Ideal S1x256 .f32) (ix2 (0 : Fin 1) q) = buArr m c (ix2 (0 : Fin 1) q) := by
  obtain ⟨-, -, -, -, -, -, e0, e1, -⟩ := idx_facts t
  unfold iblk
  rw [View.read_apply]
  show V m c main_v19 _ = V m c main_v19 _
  congr 1
  funext a
  apply Fin.ext
  match a with
  | ⟨0, _⟩ => show win0_3.index t (0 : Fin 2) * 1 + 1 * (0 : Nat) = 0; rw [e0]
  | ⟨1, _⟩ => show win0_3.index t (1 : Fin 2) * 256 + 1 * q.val = q.val; rw [e1]; omega

/-- The gate weights' upper half is whole at every point. -/
theorem g1Tile_apply (c : Dev nD) (t : Fin cfg0.N) (k q : Fin 256) :
    (iblk m c 4 t : Vec Ideal S256x256 .bf16) (ix2 k q) = g1Arr m c (ix2 k q) := by
  obtain ⟨-, -, -, -, -, -, -, -, e0, e1, -⟩ := idx_facts t
  unfold iblk
  rw [View.read_apply]
  show V m c main_v15 _ = V m c main_v15 _
  congr 1
  funext a
  apply Fin.ext
  match a with
  | ⟨0, _⟩ => show win0_4.index t (0 : Fin 2) * 256 + 1 * k.val = k.val; rw [e0]; omega
  | ⟨1, _⟩ => show win0_4.index t (1 : Fin 2) * 256 + 1 * q.val = q.val; rw [e1]; omega

/-- The gate weights' lower half is whole at every point. -/
theorem g2Tile_apply (c : Dev nD) (t : Fin cfg0.N) (k q : Fin 256) :
    (iblk m c 5 t : Vec Ideal S256x256 .bf16) (ix2 k q) = g2Arr m c (ix2 k q) := by
  obtain ⟨-, -, -, -, -, -, -, -, -, -, e0, e1, -⟩ := idx_facts t
  unfold iblk
  rw [View.read_apply]
  show V m c main_v17 _ = V m c main_v17 _
  congr 1
  funext a
  apply Fin.ext
  match a with
  | ⟨0, _⟩ => show win0_5.index t (0 : Fin 2) * 256 + 1 * k.val = k.val; rw [e0]; omega
  | ⟨1, _⟩ => show win0_5.index t (1 : Fin 2) * 256 + 1 * q.val = q.val; rw [e1]; omega

/-- The gate bias's block is the whole row at every point. -/
theorem bgTile_apply (c : Dev nD) (t : Fin cfg0.N) (q : Fin 256) :
    (iblk m c 6 t : Vec Ideal S1x256 .f32) (ix2 (0 : Fin 1) q) = bgArr m c (ix2 (0 : Fin 1) q) := by
  obtain ⟨-, -, -, -, -, -, -, -, -, -, -, -, e0, e1, -⟩ := idx_facts t
  unfold iblk
  rw [View.read_apply]
  show V m c main_v20 _ = V m c main_v20 _
  congr 1
  funext a
  apply Fin.ext
  match a with
  | ⟨0, _⟩ => show win0_6.index t (0 : Fin 2) * 1 + 1 * (0 : Nat) = 0; rw [e0]
  | ⟨1, _⟩ => show win0_6.index t (1 : Fin 2) * 256 + 1 * q.val = q.val; rw [e1]; omega

/-! ## The output tile's indices, and the cover -/

/-- The array index of the output tile's element (p, q) at point t is (2000·t + p, q). -/
theorem outTile_emb (t : Fin cfg0.N) (p : Fin 2000) (q : Fin 256) (r : Fin 400000) (hr : r.val = 2000 * t.val + p.val) :
    ((cfg0.win 7).blk t).view.emb (ix2 p q) = (ix2 r q : S400000x256.Idx) := by
  obtain ⟨-, -, -, -, -, -, -, -, -, -, -, -, -, -, e0, e1⟩ := idx_facts t
  funext a
  apply Fin.ext
  match a with
  | ⟨0, _⟩ => show win0_7.index t (0 : Fin 2) * 2000 + 1 * p.val = r.val; rw [e0, hr]; omega
  | ⟨1, _⟩ => show win0_7.index t (1 : Fin 2) * 256 + 1 * q.val = q.val; rw [e1]; omega

/-- An index of the output array is in point t's tile iff each coordinate is in the tile's range on its axis. -/
theorem mem_blk (t : Fin cfg0.N) (i : S400000x256.Idx) :
    i ∈ ((cfg0.win 7).blk t).view.set ↔ ∀ a : Fin 2, win0_7.index t a * S2000x256.size a ≤ (i a).val ∧ (i a).val < win0_7.index t a * S2000x256.size a + S2000x256.size a := by
  show i ∈ ((View.whole main_v21).slice (win0_7.rect t)).set ↔ _
  rw [View.set_slice_whole, Rect.mem_set_unit]
  exact Iff.rfl

/-- Every index of the output array is in the tile of the point its row falls in. -/
theorem cover (i : S400000x256.Idx) : ∃ t : Fin cfg0.N, (cfg0.win 7).flush t = true ∧ i ∈ ((cfg0.win 7).blk t).view.set := by
  have hi0 : (i 0).val < 400000 := (i 0).isLt
  have hi1 : (i 1).val < 256 := (i 1).isLt
  have hN : cfg0.N = 200 := N_0
  let t : Fin cfg0.N := ⟨(i 0).val / 2000, by rw [hN]; omega⟩
  have htv : t.val = (i 0).val / 2000 := rfl
  obtain ⟨-, -, -, -, -, -, -, -, -, -, -, -, -, -, e0, e1⟩ := idx_facts t
  refine ⟨t, flush0_7 t, ?_⟩
  rw [mem_blk]
  intro a
  match a with
  | ⟨0, _⟩ => show win0_7.index t (0 : Fin 2) * 2000 ≤ (i 0).val ∧ (i 0).val < win0_7.index t (0 : Fin 2) * 2000 + 2000; rw [e0, htv]; omega
  | ⟨1, _⟩ => show win0_7.index t (1 : Fin 2) * 256 ≤ (i 1).val ∧ (i 1).val < win0_7.index t (1 : Fin 2) * 256 + 256; rw [e1]; omega

end Cert.KernelIdeal.ArrayValue

end
-- ==== Proof.LibPlainDot.lean ====
/-
  A plain two-dimensional matrix product read at an index.

  For the dimension numbers "rows × contraction times contraction × columns" (no batch axis) the operand indices at the
  output index (p, q) and contraction index k are (p, k) and (k, q); so at the extended reals a `tpu.matmul` into the
  zero accumulator and a host `dot_general` are both  Σ_k l(p, k) · r(k, q),  a finite sum over the contracted axis.
  A transposed operand reads its source at the swapped index.
-/
import Idealize.ShloMosaic.PureOps.Ideal.Laws
import Idealize.ShloMosaic.Lib.ValueIdx
import Idealize.ShloMosaic.Lib.Pipeline.Value

noncomputable section

namespace Cert.LibPlainDot

open Idealize.ShloMosaic Idealize.ShloMosaic.ValueIdx

variable {M K N : Nat}

/-- The contraction shape of a plain product has one axis. -/
theorem plain_contr_rank : (DotDims.plain M K N).contr.rank = 1 := rfl
/-- Its extent is the shared dimension. -/
theorem plain_contr_size : (DotDims.plain M K N).contr.size ⟨0, by rw [plain_contr_rank]; exact Nat.one_pos⟩ = K := rfl

/-- The left operand's index at output (p, q) and contraction coordinate k is (p, k). -/
theorem plain_lhsIdx (j : (⟨2, ![M, N]⟩ : Shape).Idx) (k : Fin K) :
    (DotDims.plain M K N).lhsIdx j ((contrEquiv1 (DotDims.plain M K N) K plain_contr_rank plain_contr_size).symm k) = ix2 (j 0) k := by
  funext a
  refine Fin.ext ?_
  match a with
  | ⟨0, _⟩ => rfl
  | ⟨1, _⟩ =>
    exact ((DotDims.plain M K N).lhsIdx_val_of_single (cl := 1) rfl j _).trans
      (contrEquiv1_symm_val (DotDims.plain M K N) K plain_contr_rank plain_contr_size k)

/-- The right operand's index is (k, q). -/
theorem plain_rhsIdx (j : (⟨2, ![M, N]⟩ : Shape).Idx) (k : Fin K) :
    (DotDims.plain M K N).rhsIdx j ((contrEquiv1 (DotDims.plain M K N) K plain_contr_rank plain_contr_size).symm k) = ix2 k (j 1) := by
  funext a
  refine Fin.ext ?_
  match a with
  | ⟨0, _⟩ =>
    exact ((DotDims.plain M K N).rhsIdx_val_of_single (cr := 0) rfl j _).trans
      (contrEquiv1_symm_val (DotDims.plain M K N) K plain_contr_rank plain_contr_size k)
  | ⟨1, _⟩ => rfl

/-- The contraction sum of a plain product over its one coordinate. -/
theorem plain_sum (l : (⟨2, ![M, K]⟩ : Shape).Idx → EReal) (r : (⟨2, ![K, N]⟩ : Shape).Idx → EReal) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K plain_contr_rank plain_contr_size).symm]
  exact Finset.sum_congr rfl fun k _ =>
    congrArg₂ (· * ·) (congrArg l (plain_lhsIdx j k)) (congrArg r (plain_rhsIdx j k))

/-- A `tpu.matmul` with plain dimension numbers into the zero accumulator, at an index, whatever the operands' formats. -/
theorem matmul_plain_zero {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    FloatOps.matmul (DotDims.plain M K N) prec l r (constant ⟨2, ![M, N]⟩ .f32 0x00000000#32) j
      = ∑ k : Fin K, (l (ix2 (j 0) k) : EReal) * (r (ix2 k (j 1)) : EReal) := by
  rw [Ideal.matmul_constant_zero_apply]
  exact plain_sum l r j

/-- A host `dot_general` with plain dimension numbers, at an index. -/
theorem dotGeneral_plain {φ₁ φ₂ : FTy} (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral (DotDims.plain M K N) prec sched l r j
      = ∑ k : Fin K, (l (ix2 (j 0) k) : EReal) * (r (ix2 k (j 1)) : EReal) := by
  rw [Ideal.dotGeneral_apply]
  exact plain_sum l r j

/-! ## Layout reads the dense layers need -/

/-- A two-dimensional transpose reads its source at the swapped index. -/
theorem transpose2_apply {α : Type} {A B : Nat} (x : (⟨2, ![A, B]⟩ : Shape).Idx → α)
    (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) fun c => by
    match c with
    | ⟨0, _⟩ => rfl
    | ⟨1, _⟩ => rfl

/-- A vector recast as a one-row matrix and broadcast down the rows (a kernel's bias) reads, at (p, q), the vector at q. -/
theorem rowBroadcastTo_apply {α : Type} {R C : Nat} (v : (⟨1, ![C]⟩ : Shape).Idx → α)
    (h1 : (⟨1, ![C]⟩ : Shape).ShapeCasts ⟨2, ![1, C]⟩) (h2 : (⟨2, ![1, C]⟩ : Shape).Broadcasts ⟨2, ![R, C]⟩)
    (p : Fin R) (q : Fin C) :
    broadcastTo ⟨2, ![R, C]⟩ (shapeCast ⟨2, ![1, C]⟩ v h1) h2 (ix2 p q) = v (ix1 q) := by
  rw [broadcastTo_apply (shapeCast ⟨2, ![1, C]⟩ v h1) h2 (ix2 p q) (ix2 (0 : Fin 1) q) (fun a => by
    match a with
    | ⟨0, _⟩ => show (0 : Nat) = if (1 : Nat) = 1 then 0 else _; rw [if_pos rfl]
    | ⟨1, _⟩ =>
      show q.val = if C = 1 then 0 else q.val
      split
      · have := q.isLt; omega
      · rfl)]
  exact shapeCast_apply v h1 (ix2 (0 : Fin 1) q) (ix1 q) (by
    rw [Shape.rowMajor_val_one, Shape.rowMajor_val_two]
    show q.val = (0 : Nat) * C + q.val
    omega)

/-- The host's form of the same bias: a vector laid along the second axis by two `broadcast_in_dim`s reads, at (p, q), the vector at q. -/
theorem rowBroadcastInDim_apply {α : Type} {R C : Nat} (v : (⟨1, ![C]⟩ : Shape).Idx → α)
    (h1 : (⟨1, ![C]⟩ : Shape).BroadcastsInDim ⟨2, ![1, C]⟩ ![1]) (h2 : (⟨2, ![1, C]⟩ : Shape).BroadcastsInDim ⟨2, ![R, C]⟩ ![0, 1])
    (p : Fin R) (q : Fin C) :
    broadcastInDim ⟨2, ![R, C]⟩ ![0, 1] h2 (broadcastInDim ⟨2, ![1, C]⟩ ![1] h1 v) (ix2 p q) = v (ix1 q) := by
  rw [broadcastInDim_apply ![0, 1] h2 _ (ix2 p q) (ix2 (0 : Fin 1) q) (fun a => by
    match a with
    | ⟨0, _⟩ => show (0 : Nat) = if (1 : Nat) = 1 then 0 else _; rw [if_pos rfl]
    | ⟨1, _⟩ =>
      show q.val = if C = 1 then 0 else q.val
      split
      · have := q.isLt; omega
      · rfl)]
  exact broadcastInDim_apply ![1] h1 v (ix2 (0 : Fin 1) q) (ix1 q) (fun a => by
    match a with
    | ⟨0, _⟩ =>
      show q.val = if C = 1 then 0 else q.val
      split
      · have := q.isLt; omega
      · rfl)

end Cert.LibPlainDot

end
-- ==== Proof.KernelTile.lean ====
/-
  The kernel body's stored value, read at an index of the row tile.

  The body loads a tile of 2000 rows of previous states (x0) and of context (x1), the three weight matrices (x2 the
  update weights, x4 / x5 the two halves of the gate weights) and the two bias rows (x3, x6, each a 1 × 256 array),
  and stores one 2000 × 256 value. At local row p and column q that value is the gated update of row p of x0 and row
  p of x1 (`GatedRow.newState`): each of the three products into a zero accumulator is, at (p, q), the sum over k of
  (row p of the left operand at k) · (right operand at (k, q)); a bias row broadcast down the tile reads the row at q;
  changes of float format are the identity on the extended reals; every other operation acts entry by entry.
-/
import proofs.«152071_j2705829396959_1_alg».proof.Proof.Gen.KernelIdeal.Skeleton
import proofs.«152071_j2705829396959_1_alg».proof.Proof.GatedRow
import proofs.«152071_j2705829396959_1_alg».proof.Proof.LibPlainDot
import Idealize.ShloMosaic.Lib.Pipeline.Value
import Idealize.ShloMosaic.Lib.ValueIdx

noncomputable section

namespace Cert.KernelIdeal.TileValue

open Cert.KernelIdeal Cert.KernelIdeal.Gen Idealize.ShloMosaic Idealize.ShloMosaic.ValueIdx

/-- The dimension numbers of the body's three products are the plain "rows × contraction times contraction × columns". -/
theorem dot_plain : dot_S2000x256_S256x256_S2000x256_1_0_0_1_n_n = DotDims.plain 2000 256 256 := rfl

/-- A product of the body into the zero accumulator, at (p, q): Σ_k l(p, k) · r(k, q). -/
theorem matmul_at {φ₁ φ₂ : FTy} (l : FVec Ideal S2000x256 φ₁) (r : FVec Ideal S256x256 φ₂) (p : Fin 2000) (q : Fin 256) :
    matmul dot_S2000x256_S256x256_S2000x256_1_0_0_1_n_n none l r (constant S2000x256 .f32 0x00000000#32) (ix2 p q)
      = ∑ k : Fin 256, (l (ix2 p k) : EReal) * (r (ix2 k q) : EReal) :=
  Cert.LibPlainDot.matmul_plain_zero (M := 2000) (K := 256) (N := 256) none l r (ix2 p q)

/-- A 1 × 256 bias row broadcast down the 2000 rows of the tile reads, at (p, q), the row at q. -/
theorem bias_at {α : Type} (x : S1x256.Idx → α) (h2 : S1x256.Broadcasts S2000x256) (p : Fin 2000) (q : Fin 256) :
    broadcastTo S2000x256 x h2 (ix2 p q) = x (ix2 (0 : Fin 1) q) := by
  exact broadcastTo_apply x h2 (ix2 p q) (ix2 (0 : Fin 1) q) (fun a => by
    match a with
    | ⟨0, _⟩ => show (0 : Nat) = if (1 : Nat) = 1 then 0 else _; rw [if_pos rfl]
    | ⟨1, _⟩ => show q.val = if (256 : Nat) = 1 then 0 else q.val; rw [if_neg (by decide)])

/-- The stored value at (p, q) is the gated update of row p of the two tiles. -/
theorem pay_apply (x0 x1 : Vec Ideal S2000x256 .f32) (x2 : Vec Ideal S256x256 .bf16) (x3 : Vec Ideal S1x256 .f32)
    (x4 x5 : Vec Ideal S256x256 .bf16) (x6 : Vec Ideal S1x256 .f32) (p : Fin 2000) (q : Fin 256) :
    k0_pay1 (F := Ideal) x0 x1 x2 x3 x4 x5 x6 (ix2 p q)
      = GatedRow.newState (fun k => x0 (ix2 p k)) (fun k => x1 (ix2 p k)) (fun k c => x2 (ix2 k c))
          (fun k c => x4 (ix2 k c)) (fun k c => x5 (ix2 k c))
          (fun c => x3 (ix2 (0 : Fin 1) c)) (fun c => x6 (ix2 (0 : Fin 1) c)) q := by
  unfold k0_pay1
  simp only [shapeCast_self, addf, mulf, subf, logistic, tanh, truncf, broadcast, matmul_at, bias_at]
  rfl

end Cert.KernelIdeal.TileValue

end
-- ==== Proof.KernelArray.lean ====
/-
  From row tiles to the array of new states.

  What grid point t writes back is, at local (p, q), the body's stored value there: the gated update of row p of the
  two input tiles, which are rows 2000·t + p of the gathered arrays, with the weights and biases whole. That is the
  array function `newStates` read at (2000·t + p, q), the array index of that element: one function of the array
  index at every point. The 200 tiles cover the array, so the output array ends holding `newStates`.
-/
import proofs.«152071_j2705829396959_1_alg».proof.Proof.KernelBlocks
import proofs.«152071_j2705829396959_1_alg».proof.Proof.KernelTile

set_option maxRecDepth 16384

noncomputable section

namespace Cert.KernelIdeal.ArrayValue

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ)

/-- WHAT POINT t WRITES BACK is tile t of the array of new states. -/
theorem flushed_eq (c : Dev nD) (t : Fin cfg0.N) :
    (dats m 0 c).flushed 7 t = ((cfg0.win 7).blk t).view.read (Elt Ideal) (result m c) := by
  show (cfg0.win 7).cut (grid0.coords t) ((dats m 0 c).after 7 t) = _
  rw [after0_7]
  unfold out0_7
  rw [View.canon_unit_zero hz]
  simp only [View.ld_unit_zero (S := S2000x256) hz, View.ld_unit_zero (S := S256x256) hz, View.ld_unit_zero (S := S1x256) hz]
  refine funext fun (j : S2000x256.Idx) => ?_
  obtain ⟨p, q, rfl⟩ : ∃ (p : Fin 2000) (q : Fin 256), j = ix2 p q := ⟨j 0, j 1, eq_ix2 j⟩
  have hN : cfg0.N = 200 := N_0
  have ht : t.val < 200 := by have := t.isLt; omega
  have hp : p.val < 2000 := p.isLt
  obtain ⟨r, hr⟩ : ∃ r : Fin 400000, r.val = 2000 * t.val + p.val := ⟨⟨2000 * t.val + p.val, by omega⟩, rfl⟩
  show k0_pay1 (F := Ideal) (iblk m c 0 t) (iblk m c 1 t) (iblk m c 2 t) (iblk m c 3 t) (iblk m c 4 t) (iblk m c 5 t) (iblk m c 6 t) (ix2 p q)
      = newStates (prevArr m c) (ctxArr m c) (wuArr m c) (buArr m c) (g1Arr m c) (g2Arr m c) (bgArr m c) (((cfg0.win 7).blk t).view.emb (ix2 p q))
  rw [outTile_emb t p q r hr, newStates_apply]
  refine (TileValue.pay_apply (iblk m c 0 t) (iblk m c 1 t) (iblk m c 2 t) (iblk m c 3 t) (iblk m c 4 t) (iblk m c 5 t) (iblk m c 6 t) p q).trans ?_
  exact GatedRow.newState_congr (fun k => prevTile_apply m c t p k r hr) (fun k => ctxTile_apply m c t p k r hr)
    (fun k q' => wuTile_apply m c t k q') (fun k q' => g1Tile_apply m c t k q') (fun k q' => g2Tile_apply m c t k q')
    (fun q' => buTile_apply m c t q') (fun q' => bgTile_apply m c t q') q

/-- THE OUTPUT ARRAY after the region: the gated update of every row. -/
theorem final (c : Dev nD) : (dats m 0 c).arrAt 7 cfg0.N = result m c :=
  (dats m 0 c).arrAt_eq_of_cover 7 (result m c) (fun t _ => flushed_eq m c t) (cover)

end Cert.KernelIdeal.ArrayValue

end
-- ==== Proof.RefRow.lean ====
/-
  The reference's new states, read at an index: the gated update of the gathered rows.

  Written r for a mapped row and c for a column, with P = the gathered previous states, X = the gathered context,
  Wu the update weights, Glo / Ghi the upper and lower halves of the gate weights, bu and bg the biases, the host
  program computes

      u(r, c)   = tanh ( Σ_k X(r, k) · Wu(k, c) + bu(c) )
      z(r, c)   = 1 / (1 + exp ( − ( ( Σ_k P(r, k) · Glo(k, c) + Σ_k u(r, k) · Ghi(k, c) ) + bg(c) ) ) )
      new(r, c) = z(r, c) · P(r, c) + (1 − z(r, c)) · u(r, c)

  which is `GatedRow.newState` of row r of P and row r of X: the quotient is the logistic
  (`GatedRow.logistic_expanded`), and nothing else needs an algebraic law. The two gathers are kept as they are:
  which element a gather reads depends on the index operand's values, and the other program gathers the same way.
-/
import proofs.«152071_j2705829396959_1_alg».proof.Proof.Gen.ReferenceIdeal.Read
import proofs.«152071_j2705829396959_1_alg».proof.Proof.GatedRow
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx

variable (a0 : (⟨S500000x256, .f32⟩ : BufTy).Contents (Elt Ideal)) (a1 : (⟨S100000x256, .f32⟩ : BufTy).Contents (Elt Ideal))
  (a2 a3 : (⟨S400000, .i32⟩ : BufTy).Contents (Elt Ideal)) (a4 : (⟨S256x256, .f32⟩ : BufTy).Contents (Elt Ideal))
  (a5 : (⟨S256, .f32⟩ : BufTy).Contents (Elt Ideal)) (a6 : (⟨S512x256, .f32⟩ : BufTy).Contents (Elt Ideal))
  (a7 : (⟨S256, .f32⟩ : BufTy).Contents (Elt Ideal))

/-- Row r of the gathered previous states. -/
abbrev prevRow (r : Fin 400000) : Fin 256 → EReal := fun k => val_main_v6 (F := Ideal) a0 a2 (ix2 r k)
/-- Row r of the gathered context. -/
abbrev ctxRow (r : Fin 400000) : Fin 256 → EReal := fun k => val_main_v13 (F := Ideal) a1 a3 (ix2 r k)
/-- The update weights by coordinates. -/
abbrev wU : Fin 256 → Fin 256 → EReal := fun k c => a4 (ix2 k c)
/-- The gate weights' rows 0 … 255 by coordinates. -/
abbrev gLo : Fin 256 → Fin 256 → EReal := fun k c => val_main_v19 (F := Ideal) a6 (ix2 k c)
/-- The gate weights' rows 256 … 511 by coordinates. -/
abbrev gHi : Fin 256 → Fin 256 → EReal := fun k c => val_main_v21 (F := Ideal) a6 (ix2 k c)
/-- The update bias by its coordinate. -/
abbrev bU : Fin 256 → EReal := fun c => a5 (ix1 c)
/-- The gate bias by its coordinate. -/
abbrev bG : Fin 256 → EReal := fun c => a7 (ix1 c)

/-! ## Index equations: the operand indices of the three products, and of the two bias broadcasts -/

theorem lidx14 (r : Fin 400000) (c k : Fin 256) : lidx_main_v14 (ix2 r c) k = ix2 r k :=
  funext fun a => match a with | ⟨0, _⟩ => rfl | ⟨1, _⟩ => rfl
theorem ridx14 (r : Fin 400000) (c k : Fin 256) : ridx_main_v14 (ix2 r c) k = ix2 k c :=
  funext fun a => match a with | ⟨0, _⟩ => rfl | ⟨1, _⟩ => rfl
theorem lidx20 (r : Fin 400000) (c k : Fin 256) : lidx_main_v20 (ix2 r c) k = ix2 r k :=
  funext fun a => match a with | ⟨0, _⟩ => rfl | ⟨1, _⟩ => rfl
theorem ridx20 (r : Fin 400000) (c k : Fin 256) : ridx_main_v20 (ix2 r c) k = ix2 k c :=
  funext fun a => match a with | ⟨0, _⟩ => rfl | ⟨1, _⟩ => rfl
theorem lidx22 (r : Fin 400000) (c k : Fin 256) : lidx_main_v22 (ix2 r c) k = ix2 r k :=
  funext fun a => match a with | ⟨0, _⟩ => rfl | ⟨1, _⟩ => rfl
theorem ridx22 (r : Fin 400000) (c k : Fin 256) : ridx_main_v22 (ix2 r c) k = ix2 k c :=
  funext fun a => match a with | ⟨0, _⟩ => rfl | ⟨1, _⟩ => rfl

/-- The update bias laid along the rows reads, at (r, c), the bias at c. -/
theorem biasU_apply (r : Fin 400000) (c : Fin 256) : val_main_v16 (F := Ideal) a5 (ix2 r c) = a5 (ix1 c) := by
  rw [val_main_v16_apply, val_main_v15_apply]
  exact congrArg a5 (funext fun a => match a with | ⟨0, _⟩ => rfl)

/-- The gate bias laid along the rows reads, at (r, c), the bias at c. -/
theorem biasG_apply (r : Fin 400000) (c : Fin 256) : val_main_v25 (F := Ideal) a7 (ix2 r c) = a7 (ix1 c) := by
  rw [val_main_v25_apply, val_main_v24_apply]
  exact congrArg a7 (funext fun a => match a with | ⟨0, _⟩ => rfl)

/-! ## The three stages -/

/-- The proposed state at (r, c). -/
theorem upd_apply (r : Fin 400000) (c : Fin 256) :
    val_main_v18 (F := Ideal) a1 a3 a4 a5 (ix2 r c) = GatedRow.upd (ctxRow a1 a3 r) (wU a4) (bU a5) c := by
  rw [val_main_v18_apply, val_main_v17_apply, val_main_v14_apply, biasU_apply]
  simp only [lidx14, ridx14]
  rfl

/-- The gate at (r, c): the host's quotient 1 / (1 + exp(−t)) is the logistic of t. -/
theorem gate_apply (r : Fin 400000) (c : Fin 256) :
    val_main_v32 (F := Ideal) a0 a1 a2 a3 a4 a5 a6 a7 (ix2 r c)
      = GatedRow.gate (prevRow a0 a2 r) (ctxRow a1 a3 r) (wU a4) (gLo a6) (gHi a6) (bU a5) (bG a7) c := by
  rw [val_main_v32_apply, val_main_v31_apply, val_main_cst_3_apply, val_main_v30_apply, val_main_v29_apply, val_main_cst_apply,
    val_main_v28_apply, val_main_v27_apply, val_main_v26_apply, val_main_v23_apply, val_main_v20_apply, val_main_v22_apply,
    biasG_apply]
  simp only [lidx20, ridx20, lidx22, ridx22, upd_apply]
  unfold GatedRow.gate
  rw [← GatedRow.logistic_expanded]
  rfl

/-- The new state at (r, c). -/
theorem newStates_apply (r : Fin 400000) (c : Fin 256) :
    val_main_v37 (F := Ideal) a0 a1 a2 a3 a4 a5 a6 a7 (ix2 r c)
      = GatedRow.newState (prevRow a0 a2 r) (ctxRow a1 a3 r) (wU a4) (gLo a6) (gHi a6) (bU a5) (bG a7) c := by
  rw [val_main_v37_apply, val_main_v33_apply, val_main_v36_apply, val_main_v35_apply, val_main_v34_apply, val_main_cst_4_apply,
    gate_apply, upd_apply]
  rfl

end Cert.ReferenceIdeal.RefValue

end
-- ==== Proof.Bridge.lean ====
/-
  The kernel program's result is the reference's function of the same arguments.

  Around the region the kernel program runs host operations that the reference program also runs, on the same
  operands: before it, the normalisation of the two index vectors (a negative index counts from the end) and the two
  row gathers, the slicing of the gate weights into halves, changes of float format (the identity on the extended
  reals) and the recasting of each bias vector as a one-row matrix; after it, the normalisation of the first index
  vector again and the scatter of the new rows into the previous states. So:

    * each array the region finds is the reference's corresponding stage (the gathers as whole arrays, the weights and
      biases entry by entry);
    * hence the region's output, the gated update of every row of those arrays, is the reference's array of new
      states, row by row and column by column (both are `GatedRow.newState` of the same rows);
    * hence the program's result, the scatter of that array, is the reference's result.

  The gathers and the scatter are never opened: which element they move depends on the index operand's values, and
  both programs apply the same one to equal operands.
-/
import proofs.«152071_j2705829396959_1_alg».proof.Proof.KernelArray
import proofs.«152071_j2705829396959_1_alg».proof.Proof.RefRow
import Idealize.ShloMosaic.Lib.StableHlo.Run
import Idealize.ShloMosaic.Lib.Pipeline.Value

set_option maxRecDepth 16384

noncomputable section

namespace Cert.KernelIdeal.Bridge

open Cert.KernelIdeal Cert.KernelIdeal.Gen Cert.KernelIdeal.ArrayValue
open Idealize.ShloMosaic Idealize.ShloMosaic.TcCoe Idealize.ShloMosaic.ValueIdx Idealize.ShloMosaic.StableHlo
open Idealize.SL.Sem

variable (m : (ℓ : Loc nD τ sig) → Buf (Elt Ideal) ℓ) (ρ : Dev nD → PrngReg)

/-! ## The argument arrays as launched, at their literal types -/

abbrev A0 (c : Dev nD) : (⟨S500000x256, .f32⟩ : BufTy).Contents (Elt Ideal) := m ((c.tc : Thread nD τ).loc main_arg0)
abbrev A1 (c : Dev nD) : (⟨S100000x256, .f32⟩ : BufTy).Contents (Elt Ideal) := m ((c.tc : Thread nD τ).loc main_arg1)
abbrev A2 (c : Dev nD) : (⟨S400000, .i32⟩ : BufTy).Contents (Elt Ideal) := m ((c.tc : Thread nD τ).loc main_arg2)
abbrev A3 (c : Dev nD) : (⟨S400000, .i32⟩ : BufTy).Contents (Elt Ideal) := m ((c.tc : Thread nD τ).loc main_arg3)
abbrev A4 (c : Dev nD) : (⟨S256x256, .f32⟩ : BufTy).Contents (Elt Ideal) := m ((c.tc : Thread nD τ).loc main_arg4)
abbrev A5 (c : Dev nD) : (⟨S256, .f32⟩ : BufTy).Contents (Elt Ideal) := m ((c.tc : Thread nD τ).loc main_arg5)
abbrev A6 (c : Dev nD) : (⟨S512x256, .f32⟩ : BufTy).Contents (Elt Ideal) := m ((c.tc : Thread nD τ).loc main_arg6)
abbrev A7 (c : Dev nD) : (⟨S256, .f32⟩ : BufTy).Contents (Elt Ideal) := m ((c.tc : Thread nD τ).loc main_arg7)

/-- The reference's result as a function of the argument arrays, at this program's arguments. -/
abbrev refResult (c : Dev nD) : (⟨S500000x256, .f32⟩ : BufTy).Contents (Elt Ideal) :=
  Cert.ReferenceIdeal.Read.val_main_v44 (F := Ideal) (A0 m c) (A1 m c) (A2 m c) (A3 m c) (A4 m c) (A5 m c) (A6 m c) (A7 m c)

/-! ## The arrays the region finds are the reference's stages -/

/-- The gathered previous states. -/
theorem prev_eq (c : Dev nD) : prevArr m c = Cert.ReferenceIdeal.Read.val_main_v6 (F := Ideal) (A0 m c) (A2 m c) := by
  show StableHlo.after hostOps0 (fun b => m (c, b)) (Proc.devRef .tc main_v6) = _
  after_results
  rfl

/-- The gathered context. -/
theorem ctx_eq (c : Dev nD) : ctxArr m c = Cert.ReferenceIdeal.Read.val_main_v13 (F := Ideal) (A1 m c) (A3 m c) := by
  show StableHlo.after hostOps0 (fun b => m (c, b)) (Proc.devRef .tc main_v13) = _
  after_results
  rfl

/-- The update weights: a change of float format is the identity. -/
theorem wu_eq (c : Dev nD) : (wuArr m c : S256x256.Idx → EReal) = A4 m c := by
  show StableHlo.after hostOps0 (fun b => m (c, b)) (Proc.devRef .tc main_v18) = _
  after_results
  rfl

/-- The gate weights' rows 0 … 255. -/
theorem g1_eq (c : Dev nD) : (g1Arr m c : S256x256.Idx → EReal) = Cert.ReferenceIdeal.Read.val_main_v19 (F := Ideal) (A6 m c) := by
  show StableHlo.after hostOps0 (fun b => m (c, b)) (Proc.devRef .tc main_v15) = _
  after_results
  rfl

/-- The gate weights' rows 256 … 511. -/
theorem g2_eq (c : Dev nD) : (g2Arr m c : S256x256.Idx → EReal) = Cert.ReferenceIdeal.Read.val_main_v21 (F := Ideal) (A6 m c) := by
  show StableHlo.after hostOps0 (fun b => m (c, b)) (Proc.devRef .tc main_v17) = _
  after_results
  rfl

/-- The update bias recast as a one-row matrix reads, at (0, q), the vector at q. -/
theorem bu_apply (c : Dev nD) (q : Fin 256) : buArr m c (ix2 (0 : Fin 1) q) = A5 m c (ix1 q) := by
  have e : (buArr m c : S1x256.Idx → EReal) = shapeCast S1x256 (A5 m c) shapeCasts_S256_S1x256 := by
    show StableHlo.after hostOps0 (fun b => m (c, b)) (Proc.devRef .tc main_v19) = _
    after_results
    rfl
  rw [e]
  exact shapeCast_apply (A5 m c) shapeCasts_S256_S1x256 (ix2 (0 : Fin 1) q) (ix1 q) (by
    rw [Shape.rowMajor_val_one, Shape.rowMajor_val_two]
    show q.val = (0 : Nat) * 256 + q.val
    omega)

/-- The gate bias recast as a one-row matrix reads, at (0, q), the vector at q. -/
theorem bg_apply (c : Dev nD) (q : Fin 256) : bgArr m c (ix2 (0 : Fin 1) q) = A7 m c (ix1 q) := by
  have e : (bgArr m c : S1x256.Idx → EReal) = shapeCast S1x256 (A7 m c) shapeCasts_S256_S1x256 := by
    show StableHlo.after hostOps0 (fun b => m (c, b)) (Proc.devRef .tc main_v20) = _
    after_results
    rfl
  rw [e]
  exact shapeCast_apply (A7 m c) shapeCasts_S256_S1x256 (ix2 (0 : Fin 1) q) (ix1 q) (by
    rw [Shape.rowMajor_val_one, Shape.rowMajor_val_two]
    show q.val = (0 : Nat) * 256 + q.val
    omega)

/-! ## The region's output is the reference's array of new states -/

theorem result_eq (c : Dev nD) :
    result m c = Cert.ReferenceIdeal.Read.val_main_v37 (F := Ideal) (A0 m c) (A1 m c) (A2 m c) (A3 m c) (A4 m c) (A5 m c) (A6 m c) (A7 m c) := by
  funext i
  obtain ⟨r, q, rfl⟩ : ∃ (r : Fin 400000) (q : Fin 256), i = ix2 r q := ⟨i 0, i 1, eq_ix2 i⟩
  show newStates (prevArr m c) (ctxArr m c) (wuArr m c) (buArr m c) (g1Arr m c) (g2Arr m c) (bgArr m c) (ix2 r q) = _
  rw [newStates_apply, Cert.ReferenceIdeal.RefValue.newStates_apply]
  exact GatedRow.newState_congr
    (fun k => congrFun (prev_eq m c) (ix2 r k)) (fun k => congrFun (ctx_eq m c) (ix2 r k))
    (fun k q' => congrFun (wu_eq m c) (ix2 k q')) (fun k q' => congrFun (g1_eq m c) (ix2 k q'))
    (fun k q' => congrFun (g2_eq m c) (ix2 k q')) (fun q' => bu_apply m c q') (fun q' => bg_apply m c q') q

/-! ## The program's result -/

/-- What the region leaves in its output array, as the lines after it find it. -/
theorem region_out (c : Dev nD) :
    Pipeline.withArrays (cfgs 0).spec c (V0 m c) (fun w => (dats m 0 c).arrAt w (cfgs 0).N) (Proc.devRef .tc main_v21)
      = Cert.ReferenceIdeal.Read.val_main_v37 (F := Ideal) (A0 m c) (A1 m c) (A2 m c) (A3 m c) (A4 m c) (A5 m c) (A6 m c) (A7 m c) :=
  ((Pipeline.withArrays_arr spec0 launch0.win.arr_inj c _ _ 7).trans (final m c)).trans (result_eq m c)

/-- The previous states are no window's array: the lines after the region find them as launched. -/
theorem tail_arg0 (c : Dev nD) :
    Pipeline.withArrays (cfgs 0).spec c (V0 m c) (fun w => (dats m 0 c).arrAt w (cfgs 0).N) (Proc.devRef .tc main_arg0) = A0 m c :=
  (Pipeline.withArrays_of_ne spec0 c (V0 m c) _ main_arg0 (by exact (by decide : ∀ w, Pipeline.arrRef spec0 w ≠ main_arg0))).trans (V_main_arg0 m c)

/-- Nor are the key indices. -/
theorem tail_arg2 (c : Dev nD) :
    Pipeline.withArrays (cfgs 0).spec c (V0 m c) (fun w => (dats m 0 c).arrAt w (cfgs 0).N) (Proc.devRef .tc main_arg2) = A2 m c :=
  (Pipeline.withArrays_of_ne spec0 c (V0 m c) _ main_arg2 (by exact (by decide : ∀ w, Pipeline.arrRef spec0 w ≠ main_arg2))).trans (V_main_arg2 m c)

/-- THE RESULT: the scatter of the new rows into the previous states, the reference's function of the arguments. -/
theorem kernel_result (c : Dev nD) :
    Pipeline.afterTail₀ cfgs (dats m) 0 (V0 m) [hostOps1] c main_v28 = refResult m c := by
  unfold Pipeline.afterTail₀
  show StableHlo.after hostOps1 _ (Proc.devRef .tc main_v28) = _
  after_results
  rw [tail_arg0, tail_arg2, region_out]
  rfl

/-! ## The run, read -/

/-- Every weakly fair execution of the kernel program ends with its result at the reference's function of the
    arguments, the arguments unchanged. -/
theorem run : θ_run defs (onTc (τ := τ) (main (F := Ideal))) ⟨m, fun _ => 0, ρ⟩ (fun r => ∀ c : Dev nD,
      r.2.mem ((c.tc : Thread nD τ).loc main_v28) = refResult m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).2 main_v28 (Pipeline.mem_restRefs_of main_v28 (by decide) (by decide))).trans (kernel_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.KernelIdeal.Bridge

end
-- ==== Proof.lean ====
/-
  A gated state update of mapped rows: a row-tiled kernel against its plain reference, equal over the extended reals.

  Both programs gather 400000 rows of previous states (P) and of context (X) by two index vectors (a negative index
  counts from the end), compute for every mapped row

      u   = tanh ( X·Wu + bu )
      z   = σ ( ( P·G_lo + u·G_hi ) + bg )            σ(t) = 1 / (1 + e^(−t)),  G_lo / G_hi the two halves of the gate weights
      new = z ⊙ P + (1 − z) ⊙ u

  and scatter the new rows back into the previous states at the key indices.

  The kernel computes the middle step in 200 row tiles of 2000 rows, with the weights in a narrower float format and the
  logistic as one operation; the reference computes it on whole arrays, the logistic written out as the quotient. On the
  extended reals a change of float format is the identity, each of the three products is the same finite sum over the
  contracted axis, and the logistic IS that quotient (at −∞ it is 1/∞ = 0, at +∞ it is 1/1). The update is row-local, so a
  tile of the output is the update of the same tile of the inputs, and the tiles cover the array. So the two arrays of
  new states agree entry by entry, with the sums grouped the same way on both sides: no distributive law, no
  cancellation, and the finiteness of the inputs is never used. The gathers before and the scatter after are the same
  operations applied to equal operands, and are not opened.

  The modules: `GatedRow` (the update of one row, and the logistic as the quotient), `LibPlainDot` (a plain matrix
  product and a bias row read at an index), `RefRow` (the reference's new states at an index), `KernelTile` (the kernel
  body's stored value at an index of a tile), `KernelBlocks` and `KernelArray` (from tiles to the array), `Bridge` (the
  host operations around the region, and the kernel program's result as the reference's function of the arguments).
-/
import proofs.«152071_j2705829396959_1_alg».proof.Defs
import proofs.«152071_j2705829396959_1_alg».proof.Proof.Gen.Kernel
import proofs.«152071_j2705829396959_1_alg».proof.Proof.Gen.Kernel.Skeleton
import proofs.«152071_j2705829396959_1_alg».proof.Proof.Gen.Kernel.Launch
import proofs.«152071_j2705829396959_1_alg».proof.Proof.Gen.Kernel.Points
import proofs.«152071_j2705829396959_1_alg».proof.Proof.Gen.Kernel.Frame
import proofs.«152071_j2705829396959_1_alg».proof.Proof.Gen.KernelIdeal
import proofs.«152071_j2705829396959_1_alg».proof.Proof.Gen.KernelIdeal.Skeleton
import proofs.«152071_j2705829396959_1_alg».proof.Proof.Gen.KernelIdeal.Launch
import proofs.«152071_j2705829396959_1_alg».proof.Proof.Gen.KernelIdeal.Points
import proofs.«152071_j2705829396959_1_alg».proof.Proof.Gen.KernelIdeal.Frame
import proofs.«152071_j2705829396959_1_alg».proof.Proof.Gen.ReferenceIdeal
import proofs.«152071_j2705829396959_1_alg».proof.Proof.Gen.Pre_finite_inputs
import proofs.«152071_j2705829396959_1_alg».proof.Proof.Gen.ReferenceIdeal.Run
import proofs.«152071_j2705829396959_1_alg».proof.Proof.Gen.ReferenceIdeal.Read
import proofs.«152071_j2705829396959_1_alg».proof.Proof.Bridge
import Idealize.ShloMosaic.Adequacy
import Idealize.ShloMosaic.Init

noncomputable section

namespace Cert.Proof

open Idealize.ShloMosaic Idealize.SL.Sem

/-- The kernel program runs and keeps its arguments, at the word level. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference program runs and keeps its arguments: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The kernel's reading over the extended reals rewrites no operation. -/
theorem preserves : Cert.preserves_Kernel_KernelIdeal := trivial

/-- From memories that agree on the arguments both programs end with the reference's function of the kernel program's
    arguments: the kernel program by `Bridge.run`, the reference by its own run, its arguments rewritten by the agreement. -/
theorem algebraic : Cert.algebraic_KernelIdeal_ReferenceIdeal := by
  intro m ρ m' ρ' _ hagree
  refine ⟨fun c => Cert.KernelIdeal.Bridge.refResult m c, Cert.KernelIdeal.Bridge.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v44_eq, (hagree c).1, (hagree c).2.1, (hagree c).2.2.1, (hagree c).2.2.2.1,
    (hagree c).2.2.2.2.1, (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
